-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S4096x512 : Shape := ⟨2, ![4096, 512]⟩
abbrev S4096x1024 : Shape := ⟨2, ![4096, 1024]⟩
abbrev S4096 : Shape := ⟨1, ![4096]⟩
abbrev S8192x4096 : Shape := ⟨2, ![8192, 4096]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S4096x512 : S_.BroadcastsInDim S4096x512 (![] : Fin 0 → Fin S4096x512.rank)
  reducesTo_S4096x512_S_d0_1 : S4096x512.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S8192x4096 : S_.BroadcastsInDim S8192x4096 (![] : Fin 0 → Fin S8192x4096.rank)
  reducesTo_S8192x4096_S_d0_1 : S8192x4096.ReducesTo [0, 1] S_

variable [Facts]

def fn_part2 {F : FTy → Type} [FloatOps F] (main_arg7 : FVec F S4096 .f32) (main_arg8 : FVec F S4096 .f32) (main_arg9 : FVec F S8192x4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S8192x4096 .f32 := Host.absf main_arg9
  let main_cst_16 : FVec F S_ .f32 := constant S_ .f32 0x7F800000#32
  let main_v45 : FVec F S8192x4096 .f32 := broadcastInDim S8192x4096 ![] bcast_S_S8192x4096 main_cst_16
  let main_v46 : IVec S8192x4096 1 := cmpf .olt main_v44 main_v45
  let main_c_17 : IVec S_ 1 := constantI S_ 1 1#1
  let main_v47 : IVec S_ 1 := (fun x v => Host.reduce IntOp.andi x v reducesTo_S8192x4096_S_d0_1 h_S_) main_v46 main_c_17
  let main_v48 : IVec S_ 1 := andi main_v43 main_v47
  main_v48

def fn_part1 {F : FTy → Type} [FloatOps F] (main_arg4 : FVec F S4096x1024 .f32) (main_arg5 : FVec F S4096 .f32) (main_arg6 : FVec F S4096 .f32) (main_arg7 : FVec F S4096 .f32) (main_arg8 : FVec F S4096 .f32) (main_arg9 : FVec F S8192x4096 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S8192x512 .f32) (main_arg1 : FVec F S8192x1024 .f32) (main_arg2 : FVec F S8192x1024 .f32) (main_arg3 : FVec F S4096x512 .f32) (main_arg4 : FVec F S4096x1024 .f32) (main_arg5 : FVec F S4096 .f32) (main_arg6 : FVec F S4096 .f32) (main_arg7 : FVec F S4096 .f32) (main_arg8 : FVec F S4096 .f32) (main_arg9 : FVec F S8192x4096 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_arg7 main_arg8 main_arg9 main_v13 main_v16
-- ==== Kernel.lean ====
abbrev S8192x512 : Shape := ⟨2, ![8192, 512]⟩
abbrev S8192x1024 : Shape := ⟨2, ![8192, 1024]⟩
abbrev S4096x512 : Shape := ⟨2, ![4096, 512]⟩
abbrev S4096x1024 : Shape := ⟨2, ![4096, 1024]⟩
abbrev S4096 : Shape := ⟨1, ![4096]⟩
abbrev S8192x4096 : Shape := ⟨2, ![8192, 4096]⟩
abbrev S1x4096 : Shape := ⟨2, ![1, 4096]⟩
abbrev S128x512 : Shape := ⟨2, ![128, 512]⟩
abbrev S128x1024 : Shape := ⟨2, ![128, 1024]⟩
abbrev S128x4096 : Shape := ⟨2, ![128, 4096]⟩

abbrev nBuf : Space → Nat
  | .hbm => 18
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S4096x512, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S8192x4096, .f32⟩
  | .hbm, ⟨10, _⟩ => ⟨S4096x512, .bf16⟩
  | .hbm, ⟨11, _⟩ => ⟨S4096x1024, .bf16⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S8192x1024, .f32⟩
  | .hbm, ⟨17, _⟩ => ⟨S8192x1024, .f32⟩
  | .local _ .vmem, ⟨0, _⟩ => ⟨S128x512, .f32⟩
  | .local _ .vmem, ⟨1, _⟩ => ⟨S128x512, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x4096, .f32⟩
  | .local _ .vmem, ⟨7, _⟩ => ⟨S128x4096, .f32⟩
  | .local _ .vmem, ⟨8, _⟩ => ⟨S4096x512, .bf16⟩
  | .local _ .vmem, ⟨9, _⟩ => ⟨S4096x1024, .bf16⟩
  | .local _ .vmem, ⟨10, _⟩ => ⟨S1x4096, .f32⟩
  | .local _ .vmem, ⟨11, _⟩ => ⟨S1x4096, .f32⟩
  | .local _ .vmem, ⟨12, _⟩ => ⟨S1x4096, .f32⟩
  | .local _ .vmem, ⟨13, _⟩ => ⟨S1x4096, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  shapeCasts_S4096_S1x4096 : S4096.ShapeCasts S1x4096
  inb_S128x512_S128x512_0_0 : ∀ a, (![0, 0] : Fin 2 → Nat) a + S128x512.size a ≤ S128x512.size a
  h_S128x512 : 0 < S128x512.numel
  inb_S128x1024_S128x1024_0_0 : ∀ a, (![0, 0] : Fin 2 → Nat) a + S128x1024.size a ≤ S128x1024.size a
  h_S128x1024 : 0 < S128x1024.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x512_S4096x512_S128x4096_1_1_0_0_n_n_wf : DotDims.WF S128x512 S4096x512 S128x4096 [1] [1] [0] [0] [] []
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S8192x512.size a
  hwx0_0 : ∀ i : grid0.Coords, EltTy.bits .f32 = 32 ∨ (Rect.block (s := S8192x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x4096.size a
  hwx0_3 : ∀ i : grid0.Coords, EltTy.bits .f32 = 32 ∨ (Rect.block (s := S8192x4096) S128x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S4096x512.size a
  hwx0_4 : ∀ i : grid0.Coords, EltTy.bits .bf16 = 32 ∨ (Rect.block (s := S4096x512) S4096x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x4096.size a ≤ S1x4096.size a
  hwx0_9 : ∀ i : grid0.Coords, EltTy.bits .f32 = 32 ∨ (Rect.block (s := S1x4096) S1x4096.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S8192x1024.size a
  hwx0_10 : ∀ i : grid0.Coords, EltTy.bits .f32 = 32 ∨ (Rect.block (s := S8192x1024) S128x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S8192x1024.size a
  hwx0_11 : ∀ i : grid0.Coords, EltTy.bits .f32 = 32 ∨ (Rect.block (s := S8192x1024) S128x1024.size (cc0_transform_11 i) (hinb0_11 i)).WholeWords (EltTy.packing .f32)

variable [Facts₀]

def dot_S128x512_S4096x512_S128x4096_1_1_0_0_n_n : DotDims S128x512 S4096x512 S128x4096 where
  lhsContracting := [1]
  rhsContracting := [1]
  lhsNonContracting := [0]
  rhsNonContracting := [0]
  lhsBatch := []
  rhsBatch := []
  wf := dot_S128x512_S4096x512_S128x4096_1_1_0_0_n_n_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4096x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6_0) S128x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_1) S128x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1024 : Shape := ⟨2, ![8192, 1024]⟩
abbrev S4096x512 : Shape := ⟨2, ![4096, 512]⟩
abbrev S4096x1024 : Shape := ⟨2, ![4096, 1024]⟩
abbrev S4096 : Shape := ⟨1, ![4096]⟩
abbrev S8192x4096 : Shape := ⟨2, ![8192, 4096]⟩
abbrev S512x4096 : Shape := ⟨2, ![512, 4096]⟩
abbrev S1x4096 : Shape := ⟨2, ![1, 4096]⟩
abbrev S1024x4096 : Shape := ⟨2, ![1024, 4096]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S4096x512, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S8192x4096, .f32⟩
  | .hbm, ⟨10, _⟩ => ⟨S512x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S1024x4096, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S4096x1024_S1024x4096_1_0 : S4096x1024.Transposes [1, 0] S1024x4096
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x512_S512x4096_S8192x4096_1_0_0_1_n_n_wf : DotDims.WF S8192x512 S512x4096 S8192x4096 [1] [0] [0] [1] [] []
  dot_S8192x1024_S1024x4096_S8192x4096_1_0_0_1_n_n_wf : DotDims.WF S8192x1024 S1024x4096 S8192x4096 [1] [0] [0] [1] [] []

variable [Facts₀]

def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.Cell.lean ====
/-
  The cell this certificate is about, as one function of its ten argument arrays.

  A batch of 8192 rows goes through one step of a long short-term memory cell of width 1024 whose four gate
  pre-activations carry an additive perturbation. For batch row b and gate column n (4096 columns: the input, forget,
  cell and output gates, 1024 columns each, in that order) the pre-activation is

      gate b n = Σ_k inp[b,k]·W_ih[n,k] + Σ_k hx[b,k]·W_hh[n,k] + b_ih[n] + b_hh[n] + (mu[n] + sigma[n]·eps[b,n]),

  the new cell state is  c'[b,h] = σ(gate b (h+1024))·cx[b,h] + σ(gate b h)·tanh(gate b (h+2048))  and the new hidden
  state is  h'[b,h] = σ(gate b (h+3072))·tanh(c'[b,h]),  with σ the logistic function. Everything is read on the
  extended reals, where a sum may be regrouped and reordered freely (addition there is commutative and associative,
  infinities included), which is all the comparison of the two programs needs.
-/
import Idealize.ShloMosaic.PureOps.Ideal
import Idealize.ShloMosaic.Lib.ValueIdx

noncomputable section

open scoped BigOperators

namespace Cert.Cell

open Idealize.ShloMosaic Idealize.ShloMosaic.ValueIdx

/-- A matrix of extended reals with literal extents. -/
abbrev Mat (a b : Nat) : Type := (⟨2, ![a, b]⟩ : Shape).Idx → EReal
/-- A vector of extended reals with a literal extent. -/
abbrev Row (a : Nat) : Type := (⟨1, ![a]⟩ : Shape).Idx → EReal

/-- The ten argument arrays, in the order both programs take them. -/
structure Args where
  inp : Mat 8192 512
  hx : Mat 8192 1024
  cx : Mat 8192 1024
  wih : Mat 4096 512
  whh : Mat 4096 1024
  bih : Row 4096
  bhh : Row 4096
  mu : Row 4096
  sg : Row 4096
  eps : Mat 8192 4096

/-- Column h of the gate that starts at column o. -/
abbrev col (o : Nat) (ho : o + 1024 ≤ 4096) (h : Fin 1024) : Fin 4096 := ⟨h.val + o, by have := h.isLt; omega⟩

/-- The pre-activation of gate column n for batch row b. -/
def gate (A : Args) (b : Fin 8192) (n : Fin 4096) : EReal :=
  (∑ k : Fin 512, A.inp (ix2 b k) * A.wih (ix2 n k)) + (∑ k : Fin 1024, A.hx (ix2 b k) * A.whh (ix2 n k))
    + A.bih (ix1 n) + A.bhh (ix1 n) + (A.mu (ix1 n) + A.sg (ix1 n) * A.eps (ix2 b n))

/-- The new cell state at batch row b, unit h. -/
def cell (A : Args) (b : Fin 8192) (h : Fin 1024) : EReal :=
  Ideal.logistic (gate A b (col 1024 (by omega) h)) * A.cx (ix2 b h)
    + Ideal.logistic (gate A b (col 0 (by omega) h)) * Ideal.tanh (gate A b (col 2048 (by omega) h))

/-- The new hidden state at batch row b, unit h. -/
def hidden (A : Args) (b : Fin 8192) (h : Fin 1024) : EReal :=
  Ideal.logistic (gate A b (col 3072 (by omega) h)) * Ideal.tanh (cell A b h)

/-- The new cell state as an array. -/
def cellArr (A : Args) : Mat 8192 1024 := fun i => cell A (i 0) (i 1)

/-- The new hidden state as an array. -/
def hiddenArr (A : Args) : Mat 8192 1024 := fun i => hidden A (i 0) (i 1)

theorem cellArr_apply (A : Args) (b : Fin 8192) (h : Fin 1024) : cellArr A (ix2 b h) = cell A b h := rfl
theorem hiddenArr_apply (A : Args) (b : Fin 8192) (h : Fin 1024) : hiddenArr A (ix2 b h) = hidden A b h := rfl

/-- The same pre-activation with the bias of the first product added before the second product, the order in which the
    reference adds them. -/
theorem gate_eq_biasFirst (A : Args) (b : Fin 8192) (n : Fin 4096) :
    (∑ k : Fin 512, A.inp (ix2 b k) * A.wih (ix2 n k)) + A.bih (ix1 n) + (∑ k : Fin 1024, A.hx (ix2 b k) * A.whh (ix2 n k))
      + A.bhh (ix1 n) + (A.mu (ix1 n) + A.sg (ix1 n) * A.eps (ix2 b n)) = gate A b n := by
  unfold gate
  rw [add_right_comm (∑ k : Fin 512, A.inp (ix2 b k) * A.wih (ix2 n k)) (A.bih (ix1 n))]

/-- The logistic function written out as the host does, with the unit constants as the words the programs print. -/
theorem logistic_spelled (x : EReal) :
    Ideal.div (Ideal.ofBits .f32 0x3F800000#32) (Ideal.ofBits .f32 0x3F800000#32 + Ideal.exp (-x)) = Ideal.logistic x := by
  have one : Ideal.ofBits .f32 0x3F800000#32 = 1 := by
    simp [Ideal.ofBits, Ideal.ieee, -EReal.coe_mul]; norm_num
  rw [one]; rfl

end Cert.Cell

end
-- ==== Proof.RefCell.lean ====
/-
  The reference program computes the cell of Cell.lean.

  Read one operation at a time, the reference forms the gate pre-activations as
  ((inp·W_ihᵀ + b_ih) + hx·W_hhᵀ + b_hh) + (mu + sigma·eps): the transposes and the broadcasts only move indices, the two
  contractions are the sums over k, and the bias of the first product is added before the second product, which is the
  same extended real as adding it after. It then cuts the four gates out by column ranges, spells the logistic function
  as 1 / (1 + exp (−x)) on three of them and applies tanh to the third range, and combines them into the new cell and
  hidden states.
-/
import proofs.«159828_j85194971283616_1_alg».proof.Proof.Gen.ReferenceIdeal.Read
import proofs.«159828_j85194971283616_1_alg».proof.Proof.Cell

noncomputable section

open scoped BigOperators

namespace Cert.ReferenceIdeal.RefCell

open Cert.ReferenceIdeal Cert.ReferenceIdeal.Read Idealize.ShloMosaic Idealize.ShloMosaic.ValueIdx Cert.Cell

/-! ## Where the reference's layout operations read -/

section Indices
variable (b : Fin 8192) (n : Fin 4096) (h : Fin 1024)

/-- The first product's left operand at contraction index k: the input at (b, k). -/
theorem inp_idx (k : Fin 512) : lidx_main_v1 (ix2 b n) k = ix2 b k :=
  funext fun a => by match a with | ⟨0, _⟩ => rfl | ⟨1, _⟩ => rfl
/-- Its right operand, through the transpose: the weight at (n, k). -/
theorem wih_idx (k : Fin 512) : idx_main_v0 (ridx_main_v1 (ix2 b n) k) = ix2 n k :=
  funext fun a => by match a with | ⟨0, _⟩ => rfl | ⟨1, _⟩ => rfl
/-- The second product's left operand at contraction index k: the previous hidden state at (b, k). -/
theorem hx_idx (k : Fin 1024) : lidx_main_v6 (ix2 b n) k = ix2 b k :=
  funext fun a => by match a with | ⟨0, _⟩ => rfl | ⟨1, _⟩ => rfl
/-- Its right operand, through the transpose: the weight at (n, k). -/
theorem whh_idx (k : Fin 1024) : idx_main_v5 (ridx_main_v6 (ix2 b n) k) = ix2 n k :=
  funext fun a => by match a with | ⟨0, _⟩ => rfl | ⟨1, _⟩ => rfl
/-- A vector broadcast to one row and then down the batch reads, at (b, n), the vector at n: the four of them. -/
theorem bih_idx : idx_main_v2 (idx_main_v3 (ix2 b n)) = ix1 n := funext fun a => by match a with | ⟨0, _⟩ => rfl
theorem bhh_idx : idx_main_v8 (idx_main_v9 (ix2 b n)) = ix1 n := funext fun a => by match a with | ⟨0, _⟩ => rfl
theorem sg_idx : idx_main_v11 (idx_main_v12 (ix2 b n)) = ix1 n := funext fun a => by match a with | ⟨0, _⟩ => rfl
theorem mu_idx : idx_main_v14 (idx_main_v15 (ix2 b n)) = ix1 n := funext fun a => by match a with | ⟨0, _⟩ => rfl
/-- The four column ranges the gates are cut from. -/
theorem in_idx : idx_main_v18 (ix2 b h) = ix2 b (col 0 (by omega) h) :=
  funext fun a => by match a with | ⟨0, _⟩ => rfl | ⟨1, _⟩ => rfl
theorem forget_idx : idx_main_v19 (ix2 b h) = ix2 b (col 1024 (by omega) h) :=
  funext fun a => by match a with | ⟨0, _⟩ => rfl | ⟨1, _⟩ => exact Fin.ext (Nat.add_comm _ _)
theorem cand_idx : idx_main_v20 (ix2 b h) = ix2 b (col 2048 (by omega) h) :=
  funext fun a => by match a with | ⟨0, _⟩ => rfl | ⟨1, _⟩ => exact Fin.ext (Nat.add_comm _ _)
theorem out_idx : idx_main_v21 (ix2 b h) = ix2 b (col 3072 (by omega) h) :=
  funext fun a => by match a with | ⟨0, _⟩ => rfl | ⟨1, _⟩ => exact Fin.ext (Nat.add_comm _ _)

end Indices

/-! ## The gate pre-activations -/

/-- The reference's [8192, 4096] array of pre-activations is the cell's gate, at every batch row and column. -/
theorem gates_apply (A : Args) (b : Fin 8192) (n : Fin 4096) :
    val_main_v17 (F := Ideal) A.inp A.hx A.wih A.whh A.bih A.bhh A.mu A.sg A.eps (ix2 b n) = gate A b n := by
  rw [← gate_eq_biasFirst]
  rw [val_main_v17_apply, val_main_v10_apply, val_main_v7_apply, val_main_v4_apply, val_main_v1_apply, val_main_v3_apply,
    val_main_v2_apply, val_main_v6_apply, val_main_v9_apply, val_main_v8_apply, val_main_v16_apply, val_main_v15_apply,
    val_main_v14_apply, val_main_v13_apply, val_main_v12_apply, val_main_v11_apply]
  simp only [val_main_v0_apply, val_main_v5_apply, inp_idx, wih_idx, hx_idx, whh_idx, bih_idx, bhh_idx, sg_idx, mu_idx,
    Ideal.addf_def, Ideal.mulf_def]

/-! ## The four gates -/

/-- The input gate: the logistic function of the first 1024 columns. -/
theorem inGate_apply (A : Args) (b : Fin 8192) (h : Fin 1024) :
    val_main_v27 (F := Ideal) A.inp A.hx A.wih A.whh A.bih A.bhh A.mu A.sg A.eps (ix2 b h) = Ideal.logistic (gate A b (col 0 (by omega) h)) := by
  rw [val_main_v27_apply, val_main_v26_apply, val_main_cst_0_apply, val_main_v25_apply, val_main_v24_apply,
    val_main_cst_apply, val_main_v23_apply, val_main_v22_apply, val_main_v18_apply, in_idx, gates_apply]
  exact logistic_spelled _

/-- The forget gate: the logistic function of the second 1024 columns. -/
theorem forgetGate_apply (A : Args) (b : Fin 8192) (h : Fin 1024) :
    val_main_v33 (F := Ideal) A.inp A.hx A.wih A.whh A.bih A.bhh A.mu A.sg A.eps (ix2 b h) = Ideal.logistic (gate A b (col 1024 (by omega) h)) := by
  rw [val_main_v33_apply, val_main_v32_apply, val_main_cst_2_apply, val_main_v31_apply, val_main_v30_apply,
    val_main_cst_1_apply, val_main_v29_apply, val_main_v28_apply, val_main_v19_apply, forget_idx, gates_apply]
  exact logistic_spelled _

/-- The candidate: tanh of the third 1024 columns. -/
theorem candidate_apply (A : Args) (b : Fin 8192) (h : Fin 1024) :
    val_main_v34 (F := Ideal) A.inp A.hx A.wih A.whh A.bih A.bhh A.mu A.sg A.eps (ix2 b h) = Ideal.tanh (gate A b (col 2048 (by omega) h)) := by
  rw [val_main_v34_apply, val_main_v20_apply, cand_idx, gates_apply]
  rfl

/-- The output gate: the logistic function of the last 1024 columns. -/
theorem outGate_apply (A : Args) (b : Fin 8192) (h : Fin 1024) :
    val_main_v40 (F := Ideal) A.inp A.hx A.wih A.whh A.bih A.bhh A.mu A.sg A.eps (ix2 b h) = Ideal.logistic (gate A b (col 3072 (by omega) h)) := by
  rw [val_main_v40_apply, val_main_v39_apply, val_main_cst_4_apply, val_main_v38_apply, val_main_v37_apply,
    val_main_cst_3_apply, val_main_v36_apply, val_main_v35_apply, val_main_v21_apply, out_idx, gates_apply]
  exact logistic_spelled _

/-! ## The two results -/

/-- The reference's second result is the new cell state. -/
theorem cell_eq (A : Args) : val_main_v43 (F := Ideal) A.inp A.hx A.cx A.wih A.whh A.bih A.bhh A.mu A.sg A.eps = cellArr A := by
  funext i
  obtain ⟨b, h, rfl⟩ : ∃ (b : Fin 8192) (h : Fin 1024), i = ix2 b h := ⟨i 0, i 1, eq_ix2 i⟩
  rw [val_main_v43_apply, val_main_v41_apply, val_main_v42_apply, forgetGate_apply, inGate_apply, candidate_apply]
  rfl

/-- The reference's first result is the new hidden state. -/
theorem hidden_eq (A : Args) : val_main_v45 (F := Ideal) A.inp A.hx A.cx A.wih A.whh A.bih A.bhh A.mu A.sg A.eps = hiddenArr A := by
  funext i
  obtain ⟨b, h, rfl⟩ : ∃ (b : Fin 8192) (h : Fin 1024), i = ix2 b h := ⟨i 0, i 1, eq_ix2 i⟩
  rw [val_main_v45_apply, val_main_v40_apply, val_main_v44_apply, cell_eq]
  rw [← val_main_v40_apply, outGate_apply]
  rfl

end Cert.ReferenceIdeal.RefCell

end
-- ==== Proof.GateBlock.lean ====
/-
  The kernel body's gate pre-activations for one block of 128 batch rows, read at a row and a column.

  The body narrows the block of inputs and the block of previous hidden states to bf16 (on extended reals a change of
  format changes nothing), multiplies each by the transpose of its weight matrix into an accumulator of zeros, adds the
  two products, then the two bias rows laid along every row of the block, then mu plus sigma times the block of noise.
  At row p and column n that is the sum over k of input times weight, plus the sum over k of hidden times weight, plus
  the two biases at n, plus (mu at n plus sigma at n times the noise at (p, n)).
-/
import proofs.«159828_j85194971283616_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.GateBlock

open Cert.KernelIdeal Cert.KernelIdeal.Gen Idealize.ShloMosaic Idealize.ShloMosaic.ValueIdx

/-! ## Where the two products read their operands -/

theorem lhs_ih_0 (i : S128x4096.Idx) (q : dot_S128x512_S4096x512_S128x4096_1_1_0_0_n_n.contr.Idx) : (dot_S128x512_S4096x512_S128x4096_1_1_0_0_n_n.lhsIdx i q 0).val = (i 0).val := by
  unfold DotDims.lhsIdx
  rw [dif_neg (show ¬(0 : Fin S128x512.rank) ∈ dot_S128x512_S4096x512_S128x4096_1_1_0_0_n_n.lhsBatch by decide), dif_pos (show (0 : Fin S128x512.rank) ∈ dot_S128x512_S4096x512_S128x4096_1_1_0_0_n_n.lhsNonContracting by decide)]
  rfl
theorem lhs_ih_1 (i : S128x4096.Idx) (q : dot_S128x512_S4096x512_S128x4096_1_1_0_0_n_n.contr.Idx) : (dot_S128x512_S4096x512_S128x4096_1_1_0_0_n_n.lhsIdx i q 1).val = (q ⟨0, by decide⟩).val :=
  dot_S128x512_S4096x512_S128x4096_1_1_0_0_n_n.lhsIdx_val_of_single rfl i q
theorem rhs_ih_0 (i : S128x4096.Idx) (q : dot_S128x512_S4096x512_S128x4096_1_1_0_0_n_n.contr.Idx) : (dot_S128x512_S4096x512_S128x4096_1_1_0_0_n_n.rhsIdx i q 0).val = (i 1).val := by
  unfold DotDims.rhsIdx
  rw [dif_neg (show ¬(0 : Fin S4096x512.rank) ∈ dot_S128x512_S4096x512_S128x4096_1_1_0_0_n_n.rhsBatch by decide), dif_pos (show (0 : Fin S4096x512.rank) ∈ dot_S128x512_S4096x512_S128x4096_1_1_0_0_n_n.rhsNonContracting by decide)]
  rfl
theorem rhs_ih_1 (i : S128x4096.Idx) (q : dot_S128x512_S4096x512_S128x4096_1_1_0_0_n_n.contr.Idx) : (dot_S128x512_S4096x512_S128x4096_1_1_0_0_n_n.rhsIdx i q 1).val = (q ⟨0, by decide⟩).val :=
  dot_S128x512_S4096x512_S128x4096_1_1_0_0_n_n.rhsIdx_val_of_single rfl i q

theorem lhs_hh_0 (i : S128x4096.Idx) (q : dot_S128x1024_S4096x1024_S128x4096_1_1_0_0_n_n.contr.Idx) : (dot_S128x1024_S4096x1024_S128x4096_1_1_0_0_n_n.lhsIdx i q 0).val = (i 0).val := by
  unfold DotDims.lhsIdx
  rw [dif_neg (show ¬(0 : Fin S128x1024.rank) ∈ dot_S128x1024_S4096x1024_S128x4096_1_1_0_0_n_n.lhsBatch by decide), dif_pos (show (0 : Fin S128x1024.rank) ∈ dot_S128x1024_S4096x1024_S128x4096_1_1_0_0_n_n.lhsNonContracting by decide)]
  rfl
theorem lhs_hh_1 (i : S128x4096.Idx) (q : dot_S128x1024_S4096x1024_S128x4096_1_1_0_0_n_n.contr.Idx) : (dot_S128x1024_S4096x1024_S128x4096_1_1_0_0_n_n.lhsIdx i q 1).val = (q ⟨0, by decide⟩).val :=
  dot_S128x1024_S4096x1024_S128x4096_1_1_0_0_n_n.lhsIdx_val_of_single rfl i q
theorem rhs_hh_0 (i : S128x4096.Idx) (q : dot_S128x1024_S4096x1024_S128x4096_1_1_0_0_n_n.contr.Idx) : (dot_S128x1024_S4096x1024_S128x4096_1_1_0_0_n_n.rhsIdx i q 0).val = (i 1).val := by
  unfold DotDims.rhsIdx
  rw [dif_neg (show ¬(0 : Fin S4096x1024.rank) ∈ dot_S128x1024_S4096x1024_S128x4096_1_1_0_0_n_n.rhsBatch by decide), dif_pos (show (0 : Fin S4096x1024.rank) ∈ dot_S128x1024_S4096x1024_S128x4096_1_1_0_0_n_n.rhsNonContracting by decide)]
  rfl
theorem rhs_hh_1 (i : S128x4096.Idx) (q : dot_S128x1024_S4096x1024_S128x4096_1_1_0_0_n_n.contr.Idx) : (dot_S128x1024_S4096x1024_S128x4096_1_1_0_0_n_n.rhsIdx i q 1).val = (q ⟨0, by decide⟩).val :=
  dot_S128x1024_S4096x1024_S128x4096_1_1_0_0_n_n.rhsIdx_val_of_single rfl i q

/-! ## The two products at an index -/

/-- The product of a [128, 512] block with the transpose of a [4096, 512] weight, accumulated into zeros, read at row p and
    column n: the sum over k of the block at (p, k) times the weight at (n, k). -/
theorem prod_ih_apply (x : FVec Ideal S128x512 .bf16) (w : FVec Ideal S4096x512 .bf16) (p : Fin 128) (n : Fin 4096) :
    matmul dot_S128x512_S4096x512_S128x4096_1_1_0_0_n_n none x w (constant S128x4096 .f32 0x00000000#32) (ix2 p n)
      = ∑ k : Fin 512, x (ix2 p k) * w (ix2 n k) := by
  show FloatOps.matmul dot_S128x512_S4096x512_S128x4096_1_1_0_0_n_n none x w (constant S128x4096 .f32 0x00000000#32) (ix2 p n) = _
  rw [Ideal.matmul_constant_zero_apply, ← Equiv.sum_comp (contrEquiv1 dot_S128x512_S4096x512_S128x4096_1_1_0_0_n_n 512 rfl rfl).symm]
  refine Finset.sum_congr rfl fun k _ => ?_
  have hk := contrEquiv1_symm_val dot_S128x512_S4096x512_S128x4096_1_1_0_0_n_n 512 rfl rfl k
  have el : dot_S128x512_S4096x512_S128x4096_1_1_0_0_n_n.lhsIdx (ix2 p n) ((contrEquiv1 dot_S128x512_S4096x512_S128x4096_1_1_0_0_n_n 512 rfl rfl).symm k) = ix2 p k := funext fun a => Fin.ext (by
    match a with
    | ⟨0, _⟩ => exact lhs_ih_0 _ _
    | ⟨1, _⟩ => exact (lhs_ih_1 _ _).trans hk)
  have er : dot_S128x512_S4096x512_S128x4096_1_1_0_0_n_n.rhsIdx (ix2 p n) ((contrEquiv1 dot_S128x512_S4096x512_S128x4096_1_1_0_0_n_n 512 rfl rfl).symm k) = ix2 n k := funext fun a => Fin.ext (by
    match a with
    | ⟨0, _⟩ => exact rhs_ih_0 _ _
    | ⟨1, _⟩ => exact (rhs_ih_1 _ _).trans hk)
  rw [el, er]

/-- The product of a [128, 1024] block with the transpose of a [4096, 1024] weight, accumulated into zeros, read at row p and
    column n: the sum over k of the block at (p, k) times the weight at (n, k). -/
theorem prod_hh_apply (x : FVec Ideal S128x1024 .bf16) (w : FVec Ideal S4096x1024 .bf16) (p : Fin 128) (n : Fin 4096) :
    matmul dot_S128x1024_S4096x1024_S128x4096_1_1_0_0_n_n none x w (constant S128x4096 .f32 0x00000000#32) (ix2 p n)
      = ∑ k : Fin 1024, x (ix2 p k) * w (ix2 n k) := by
  show FloatOps.matmul dot_S128x1024_S4096x1024_S128x4096_1_1_0_0_n_n none x w (constant S128x4096 .f32 0x00000000#32) (ix2 p n) = _
  rw [Ideal.matmul_constant_zero_apply, ← Equiv.sum_comp (contrEquiv1 dot_S128x1024_S4096x1024_S128x4096_1_1_0_0_n_n 1024 rfl rfl).symm]
  refine Finset.sum_congr rfl fun k _ => ?_
  have hk := contrEquiv1_symm_val dot_S128x1024_S4096x1024_S128x4096_1_1_0_0_n_n 1024 rfl rfl k
  have el : dot_S128x1024_S4096x1024_S128x4096_1_1_0_0_n_n.lhsIdx (ix2 p n) ((contrEquiv1 dot_S128x1024_S4096x1024_S128x4096_1_1_0_0_n_n 1024 rfl rfl).symm k) = ix2 p k := funext fun a => Fin.ext (by
    match a with
    | ⟨0, _⟩ => exact lhs_hh_0 _ _
    | ⟨1, _⟩ => exact (lhs_hh_1 _ _).trans hk)
  have er : dot_S128x1024_S4096x1024_S128x4096_1_1_0_0_n_n.rhsIdx (ix2 p n) ((contrEquiv1 dot_S128x1024_S4096x1024_S128x4096_1_1_0_0_n_n 1024 rfl rfl).symm k) = ix2 n k := funext fun a => Fin.ext (by
    match a with
    | ⟨0, _⟩ => exact rhs_hh_0 _ _
    | ⟨1, _⟩ => exact (rhs_hh_1 _ _).trans hk)
  rw [el, er]

/-! ## A row laid along every row of the block -/

/-- A [1, 4096] row broadcast down the 128 rows of the block reads at (p, n) the row at n. (The body first casts the row
    to its own shape, which changes nothing.) -/
theorem rowDown_apply (v : FVec Ideal S1x4096 .f32) (p : Fin 128) (n : Fin 4096) :
    broadcastTo S128x4096 v broadcasts_S1x4096_S128x4096 (ix2 p n) = v (ix2 (0 : Fin 1) n) :=
  broadcastTo_1b_ab_apply v broadcasts_S1x4096_S128x4096 p n

/-! ## The gate pre-activations of the block -/

/-- The pre-activation of gate column n for row p of a block, from the block of inputs, the block of previous hidden
    states, the two weights, the two bias rows, the mu and sigma rows and the block of noise. -/
def blockGate (P0 : Vec Ideal S128x512 .f32) (P1 : Vec Ideal S128x1024 .f32) (P2 : Vec Ideal S4096x512 .bf16)
    (P3 : Vec Ideal S4096x1024 .bf16) (P4 P5 P6 P7 : Vec Ideal S1x4096 .f32) (P8 : Vec Ideal S128x4096 .f32)
    (p : Fin 128) (n : Fin 4096) : EReal :=
  (∑ k : Fin 512, P0 (ix2 p k) * P2 (ix2 n k)) + (∑ k : Fin 1024, P1 (ix2 p k) * P3 (ix2 n k))
    + P4 (ix2 (0 : Fin 1) n) + P5 (ix2 (0 : Fin 1) n)
    + (P6 (ix2 (0 : Fin 1) n) + P7 (ix2 (0 : Fin 1) n) * P8 (ix2 p n))

/-- The body's gate pre-activations at row p, column n, from the blocks and rows it loads. -/
theorem gates_apply (P0 : Vec Ideal S128x512 .f32) (P1 : Vec Ideal S128x1024 .f32) (P2 : Vec Ideal S4096x512 .bf16)
    (P3 : Vec Ideal S4096x1024 .bf16) (P4 P5 P6 P7 : Vec Ideal S1x4096 .f32) (P8 : Vec Ideal S128x4096 .f32)
    (p : Fin 128) (n : Fin 4096) :
    k0_pay3 P0 P1 P2 P3 P4 P5 P6 P7 P8 (ix2 p n) = blockGate P0 P1 P2 P3 P4 P5 P6 P7 P8 p n := by
  unfold k0_pay3 blockGate
  simp only [addf_apply, mulf_apply, prod_ih_apply, prod_hh_apply, rowDown_apply, truncf_apply, shapeCast_self]

end Cert.KernelIdeal.GateBlock

end
-- ==== Proof.CellBlock.lean ====
/-
  What the kernel body leaves in its two output blocks, read at a row and a unit.

  The body cuts the block of gate pre-activations into four column ranges of 1024, applies the logistic function to the
  first, second and fourth and tanh to the third, and stores
      c' = σ(second)·cx + σ(first)·tanh(third)      and      h' = σ(fourth)·tanh(c')
  as the whole of its two [128, 1024] output blocks. The generated value module has already read the stores and the
  slices; what is added here is the pre-activations themselves (GateBlock.lean) and the columns written as the cell's.
-/
import proofs.«159828_j85194971283616_1_alg».proof.Proof.Gen.KernelIdeal.Value
import proofs.«159828_j85194971283616_1_alg».proof.Proof.GateBlock
import proofs.«159828_j85194971283616_1_alg».proof.Proof.Cell

noncomputable section

open scoped BigOperators

namespace Cert.KernelIdeal.CellBlock

open Cert.KernelIdeal Cert.KernelIdeal.Gen Cert.KernelIdeal.Value Cert.KernelIdeal.GateBlock
open Idealize.ShloMosaic Idealize.ShloMosaic.ValueIdx Cert.Cell

variable (P0 : Vec Ideal S128x512 .f32) (P1 : Vec Ideal S128x1024 .f32) (P2 : Vec Ideal S4096x512 .bf16)
  (P3 : Vec Ideal S4096x1024 .bf16) (P4 P5 P6 P7 : Vec Ideal S1x4096 .f32) (P8 : Vec Ideal S128x4096 .f32)
  (P9 : Vec Ideal S128x1024 .f32)

/-- The new cell state of a block at row p, unit q, from the block's pre-activations and the block of old cell states. -/
def blockCell (p : Fin 128) (q : Fin 1024) : EReal :=
  Ideal.logistic (blockGate P0 P1 P2 P3 P4 P5 P6 P7 P8 p (col 1024 (by omega) q)) * P9 (ix2 p q)
    + Ideal.logistic (blockGate P0 P1 P2 P3 P4 P5 P6 P7 P8 p (col 0 (by omega) q)) * Ideal.tanh (blockGate P0 P1 P2 P3 P4 P5 P6 P7 P8 p (col 2048 (by omega) q))

/-- The new hidden state of a block at row p, unit q. -/
def blockHidden (p : Fin 128) (q : Fin 1024) : EReal :=
  Ideal.logistic (blockGate P0 P1 P2 P3 P4 P5 P6 P7 P8 p (col 3072 (by omega) q)) * Ideal.tanh (blockCell P0 P1 P2 P3 P4 P5 P6 P7 P8 P9 p q)

/-- The block the body stores as the new cell state. -/
theorem cellBlock_apply (p : Fin 128) (q : Fin 1024) :
    (View.canon ([⟨r0_1, k0_pay1 (k0_pay4 P0 P1 P2 P3 P4 P5 P6 P7 P8) (k0_pay5 P0 P1 P2 P3 P4 P5 P6 P7 P8) (k0_pay6 P0 P1 P2 P3 P4 P5 P6 P7 P8) P9⟩] : List (View.Piece (Elt Ideal) S128x1024 .f32)) : Vec Ideal S128x1024 .f32) (ix2 p q)
      = blockCell P0 P1 P2 P3 P4 P5 P6 P7 P8 P9 p q := by
  rw [canon11_eq]
  have e0 : ix11_0 (ix2 p q) = ix2 p (col 1024 (by omega) q) := funext fun a => by match a with | ⟨0, _⟩ => rfl | ⟨1, _⟩ => rfl
  have e1 : ix11_1 (ix2 p q) = ix2 p q := funext fun a => by match a with | ⟨0, _⟩ => rfl | ⟨1, _⟩ => rfl
  have e2 : ix11_2 (ix2 p q) = ix2 p (col 0 (by omega) q) := funext fun a => by match a with | ⟨0, _⟩ => rfl | ⟨1, _⟩ => rfl
  have e3 : ix11_3 (ix2 p q) = ix2 p (col 2048 (by omega) q) := funext fun a => by match a with | ⟨0, _⟩ => rfl | ⟨1, _⟩ => rfl
  show FloatOps.addf (FloatOps.mulf (FloatOps.logistic (k0_pay3 P0 P1 P2 P3 P4 P5 P6 P7 P8 (ix11_0 (ix2 p q)))) (P9 (ix11_1 (ix2 p q))))
    (FloatOps.mulf (FloatOps.logistic (k0_pay3 P0 P1 P2 P3 P4 P5 P6 P7 P8 (ix11_2 (ix2 p q)))) (FloatOps.tanh (k0_pay3 P0 P1 P2 P3 P4 P5 P6 P7 P8 (ix11_3 (ix2 p q))))) = _
  rw [e0, e1, e2, e3, gates_apply, gates_apply, gates_apply]
  rfl

/-- The block the body stores as the new hidden state. -/
theorem hiddenBlock_apply (p : Fin 128) (q : Fin 1024) :
    (View.canon ([⟨r0_1, k0_pay2 (k0_pay4 P0 P1 P2 P3 P4 P5 P6 P7 P8) (k0_pay5 P0 P1 P2 P3 P4 P5 P6 P7 P8) (k0_pay6 P0 P1 P2 P3 P4 P5 P6 P7 P8) (k0_pay7 P0 P1 P2 P3 P4 P5 P6 P7 P8) P9⟩] : List (View.Piece (Elt Ideal) S128x1024 .f32)) : Vec Ideal S128x1024 .f32) (ix2 p q)
      = blockHidden P0 P1 P2 P3 P4 P5 P6 P7 P8 P9 p q := by
  rw [canon10_eq]
  have e0 : ix10_0 (ix2 p q) = ix2 p (col 3072 (by omega) q) := funext fun a => by match a with | ⟨0, _⟩ => rfl | ⟨1, _⟩ => rfl
  have e1 : ix10_1 (ix2 p q) = ix2 p (col 1024 (by omega) q) := funext fun a => by match a with | ⟨0, _⟩ => rfl | ⟨1, _⟩ => rfl
  have e2 : ix10_2 (ix2 p q) = ix2 p q := funext fun a => by match a with | ⟨0, _⟩ => rfl | ⟨1, _⟩ => rfl
  have e3 : ix10_3 (ix2 p q) = ix2 p (col 0 (by omega) q) := funext fun a => by match a with | ⟨0, _⟩ => rfl | ⟨1, _⟩ => rfl
  have e4 : ix10_4 (ix2 p q) = ix2 p (col 2048 (by omega) q) := funext fun a => by match a with | ⟨0, _⟩ => rfl | ⟨1, _⟩ => rfl
  show FloatOps.mulf (FloatOps.logistic (k0_pay3 P0 P1 P2 P3 P4 P5 P6 P7 P8 (ix10_0 (ix2 p q))))
    (FloatOps.tanh (FloatOps.addf (FloatOps.mulf (FloatOps.logistic (k0_pay3 P0 P1 P2 P3 P4 P5 P6 P7 P8 (ix10_1 (ix2 p q)))) (P9 (ix10_2 (ix2 p q))))
      (FloatOps.mulf (FloatOps.logistic (k0_pay3 P0 P1 P2 P3 P4 P5 P6 P7 P8 (ix10_3 (ix2 p q)))) (FloatOps.tanh (k0_pay3 P0 P1 P2 P3 P4 P5 P6 P7 P8 (ix10_4 (ix2 p q))))))) = _
  rw [e0, e1, e2, e3, e4, gates_apply, gates_apply, gates_apply, gates_apply]
  rfl

end Cert.KernelIdeal.CellBlock

end
-- ==== Proof.KernelCell.lean ====
/-
  The kernel computes the cell of Cell.lean.

  The grid has 64 points. At point t the pipeline stages rows 128·t … 128·t + 127 of the inputs, of the previous hidden
  and cell states and of the noise, and the whole of the two weights (narrowed to bf16 on the host, which on extended
  reals changes nothing) and of the four rows (each a vector of 4096 entries recast as one row); the body's two output
  blocks go back to the same 128 rows of the two result arrays. Reading every staged block where its window puts it
  turns the block's pre-activations into the cell's at batch row 128·t + p, so each point writes back a block of the
  cell's two arrays; the 64 blocks tile the result arrays, which therefore end holding exactly those arrays.
-/
import proofs.«159828_j85194971283616_1_alg».proof.Proof.Gen.KernelIdeal.Value
import proofs.«159828_j85194971283616_1_alg».proof.Proof.CellBlock
import proofs.«159828_j85194971283616_1_alg».proof.Proof.Cell
import Idealize.ShloMosaic.Lib.StableHlo.Run
import Idealize.ShloMosaic.Lib.ValueLayout

noncomputable section

open scoped BigOperators

namespace Cert.KernelIdeal.KernelCell

open Cert.KernelIdeal Cert.KernelIdeal.Gen Cert.KernelIdeal.Value Cert.KernelIdeal.GateBlock Cert.KernelIdeal.CellBlock
open Idealize.ShloMosaic Idealize.ShloMosaic.TcCoe Idealize.SL.Sem Idealize.ShloMosaic.ValueIdx Idealize.ShloMosaic.StableHlo
open Idealize.ShloMosaic.Pipeline (Dat)
open Cert.Cell

variable (m : (ℓ : Loc nD τ sig) → Buf (Elt Ideal) ℓ) (ρ : Dev nD → PrngReg)

/-- The ten argument arrays as core c holds them when the program starts. -/
def argsOf (c : Dev nD) : Args where
  inp := m ((c : Thread nD τ).loc main_arg0)
  hx := m ((c : Thread nD τ).loc main_arg1)
  cx := m ((c : Thread nD τ).loc main_arg2)
  wih := m ((c : Thread nD τ).loc main_arg3)
  whh := m ((c : Thread nD τ).loc main_arg4)
  bih := m ((c : Thread nD τ).loc main_arg5)
  bhh := m ((c : Thread nD τ).loc main_arg6)
  mu := m ((c : Thread nD τ).loc main_arg7)
  sg := m ((c : Thread nD τ).loc main_arg8)
  eps := m ((c : Thread nD τ).loc main_arg9)

/-! ## The grid: which block each window stages at point t -/

theorem hz : (![0, 0] : Fin 2 → Nat) = fun _ => 0 := funext fun a => by fin_cases a <;> rfl

theorem widx0 : ∀ t : Fin cfg0.N, win0_0.index t (0 : Fin 2) = t.val ∧ win0_0.index t (1 : Fin 2) = 0 :=
  (by decide +kernel : ∀ t : Fin grid0.N, _)
theorem widx1 : ∀ t : Fin cfg0.N, win0_1.index t (0 : Fin 2) = t.val ∧ win0_1.index t (1 : Fin 2) = 0 :=
  (by decide +kernel : ∀ t : Fin grid0.N, _)
theorem widx2 : ∀ t : Fin cfg0.N, win0_2.index t (0 : Fin 2) = t.val ∧ win0_2.index t (1 : Fin 2) = 0 :=
  (by decide +kernel : ∀ t : Fin grid0.N, _)
theorem widx3 : ∀ t : Fin cfg0.N, win0_3.index t (0 : Fin 2) = t.val ∧ win0_3.index t (1 : Fin 2) = 0 :=
  (by decide +kernel : ∀ t : Fin grid0.N, _)
theorem widx4 : ∀ t : Fin cfg0.N, win0_4.index t (0 : Fin 2) = 0 ∧ win0_4.index t (1 : Fin 2) = 0 :=
  (by decide +kernel : ∀ t : Fin grid0.N, _)
theorem widx5 : ∀ t : Fin cfg0.N, win0_5.index t (0 : Fin 2) = 0 ∧ win0_5.index t (1 : Fin 2) = 0 :=
  (by decide +kernel : ∀ t : Fin grid0.N, _)
theorem widx6 : ∀ t : Fin cfg0.N, win0_6.index t (0 : Fin 2) = 0 ∧ win0_6.index t (1 : Fin 2) = 0 :=
  (by decide +kernel : ∀ t : Fin grid0.N, _)
theorem widx7 : ∀ t : Fin cfg0.N, win0_7.index t (0 : Fin 2) = 0 ∧ win0_7.index t (1 : Fin 2) = 0 :=
  (by decide +kernel : ∀ t : Fin grid0.N, _)
theorem widx8 : ∀ t : Fin cfg0.N, win0_8.index t (0 : Fin 2) = 0 ∧ win0_8.index t (1 : Fin 2) = 0 :=
  (by decide +kernel : ∀ t : Fin grid0.N, _)
theorem widx9 : ∀ t : Fin cfg0.N, win0_9.index t (0 : Fin 2) = 0 ∧ win0_9.index t (1 : Fin 2) = 0 :=
  (by decide +kernel : ∀ t : Fin grid0.N, _)
theorem widx10 : ∀ t : Fin cfg0.N, win0_10.index t (0 : Fin 2) = t.val ∧ win0_10.index t (1 : Fin 2) = 0 :=
  (by decide +kernel : ∀ t : Fin grid0.N, _)
theorem widx11 : ∀ t : Fin cfg0.N, win0_11.index t (0 : Fin 2) = t.val ∧ win0_11.index t (1 : Fin 2) = 0 :=
  (by decide +kernel : ∀ t : Fin grid0.N, _)

/-- Batch row p of the block of point t. -/
def rowOf (t : Fin cfg0.N) (p : Fin 128) : Fin 8192 :=
  ⟨t.val * 128 + p.val, by have := Nat.lt_of_lt_of_eq t.isLt N_0; have := p.isLt; omega⟩

/-! ## The staged blocks, each at its literal type -/

abbrev blkInp (c : Dev nD) (t : Fin cfg0.N) : Vec Ideal S128x512 .f32 := iblk m c 0 t
abbrev blkHx (c : Dev nD) (t : Fin cfg0.N) : Vec Ideal S128x1024 .f32 := iblk m c 1 t
abbrev blkCx (c : Dev nD) (t : Fin cfg0.N) : Vec Ideal S128x1024 .f32 := iblk m c 2 t
abbrev blkEps (c : Dev nD) (t : Fin cfg0.N) : Vec Ideal S128x4096 .f32 := iblk m c 3 t
abbrev blkWih (c : Dev nD) (t : Fin cfg0.N) : Vec Ideal S4096x512 .bf16 := iblk m c 4 t
abbrev blkWhh (c : Dev nD) (t : Fin cfg0.N) : Vec Ideal S4096x1024 .bf16 := iblk m c 5 t
abbrev blkBih (c : Dev nD) (t : Fin cfg0.N) : Vec Ideal S1x4096 .f32 := iblk m c 6 t
abbrev blkBhh (c : Dev nD) (t : Fin cfg0.N) : Vec Ideal S1x4096 .f32 := iblk m c 7 t
abbrev blkMu (c : Dev nD) (t : Fin cfg0.N) : Vec Ideal S1x4096 .f32 := iblk m c 8 t
abbrev blkSg (c : Dev nD) (t : Fin cfg0.N) : Vec Ideal S1x4096 .f32 := iblk m c 9 t

/-! ## Each staged block read where its window puts it -/

/-- The block of inputs at point t is rows 128·t … of the input array. -/
theorem blkInp_apply (c : Dev nD) (t : Fin cfg0.N) (p : Fin 128) (k : Fin 512) :
    blkInp m c t (ix2 p k) = (argsOf m c).inp (ix2 (rowOf t p) k) := by
  obtain ⟨h0, h1⟩ := widx0 t
  show V m c main_arg0 (((cfg0.win 0).blk t).view.emb (ix2 p k)) = m ((c : Thread nD τ).loc main_arg0) (ix2 (rowOf t p) k)
  rw [V_main_arg0]
  congr 1
  funext a; apply Fin.ext
  match a with
  | ⟨0, _⟩ => show win0_0.index t (0 : Fin 2) * 128 + 1 * p.val = t.val * 128 + p.val; omega
  | ⟨1, _⟩ => show win0_0.index t (1 : Fin 2) * 512 + 1 * k.val = k.val; omega

/-- The block of previous hidden states at point t is rows 128·t … of that array. -/
theorem blkHx_apply (c : Dev nD) (t : Fin cfg0.N) (p : Fin 128) (k : Fin 1024) :
    blkHx m c t (ix2 p k) = (argsOf m c).hx (ix2 (rowOf t p) k) := by
  obtain ⟨h0, h1⟩ := widx1 t
  show V m c main_arg1 (((cfg0.win 1).blk t).view.emb (ix2 p k)) = m ((c : Thread nD τ).loc main_arg1) (ix2 (rowOf t p) k)
  rw [V_main_arg1]
  congr 1
  funext a; apply Fin.ext
  match a with
  | ⟨0, _⟩ => show win0_1.index t (0 : Fin 2) * 128 + 1 * p.val = t.val * 128 + p.val; omega
  | ⟨1, _⟩ => show win0_1.index t (1 : Fin 2) * 1024 + 1 * k.val = k.val; omega

/-- The block of previous cell states at point t is rows 128·t … of that array. -/
theorem blkCx_apply (c : Dev nD) (t : Fin cfg0.N) (p : Fin 128) (k : Fin 1024) :
    blkCx m c t (ix2 p k) = (argsOf m c).cx (ix2 (rowOf t p) k) := by
  obtain ⟨h0, h1⟩ := widx2 t
  show V m c main_arg2 (((cfg0.win 2).blk t).view.emb (ix2 p k)) = m ((c : Thread nD τ).loc main_arg2) (ix2 (rowOf t p) k)
  rw [V_main_arg2]
  congr 1
  funext a; apply Fin.ext
  match a with
  | ⟨0, _⟩ => show win0_2.index t (0 : Fin 2) * 128 + 1 * p.val = t.val * 128 + p.val; omega
  | ⟨1, _⟩ => show win0_2.index t (1 : Fin 2) * 1024 + 1 * k.val = k.val; omega

/-- The block of noise at point t is rows 128·t … of the noise array. -/
theorem blkEps_apply (c : Dev nD) (t : Fin cfg0.N) (p : Fin 128) (k : Fin 4096) :
    blkEps m c t (ix2 p k) = (argsOf m c).eps (ix2 (rowOf t p) k) := by
  obtain ⟨h0, h1⟩ := widx3 t
  show V m c main_arg9 (((cfg0.win 3).blk t).view.emb (ix2 p k)) = m ((c : Thread nD τ).loc main_arg9) (ix2 (rowOf t p) k)
  rw [V_main_arg9]
  congr 1
  funext a; apply Fin.ext
  match a with
  | ⟨0, _⟩ => show win0_3.index t (0 : Fin 2) * 128 + 1 * p.val = t.val * 128 + p.val; omega
  | ⟨1, _⟩ => show win0_3.index t (1 : Fin 2) * 4096 + 1 * k.val = k.val; omega

/-- The staged input weight is the whole weight argument: its narrowing to bf16 is the identity on extended reals. -/
theorem blkWih_apply (c : Dev nD) (t : Fin cfg0.N) (n : Fin 4096) (k : Fin 512) :
    blkWih m c t (ix2 n k) = (argsOf m c).wih (ix2 n k) := by
  obtain ⟨h0, h1⟩ := widx4 t
  have e : (V m c main_v0 : S4096x512.Idx → EReal) = m ((c : Thread nD τ).loc main_arg3) := by
    dsimp only [Gen.V, Gen.hostOps0]; after_results; rfl
  show V m c main_v0 (((cfg0.win 4).blk t).view.emb (ix2 n k)) = m ((c : Thread nD τ).loc main_arg3) (ix2 n k)
  rw [e]
  congr 1
  funext a; apply Fin.ext
  match a with
  | ⟨0, _⟩ => show win0_4.index t (0 : Fin 2) * 4096 + 1 * n.val = n.val; omega
  | ⟨1, _⟩ => show win0_4.index t (1 : Fin 2) * 512 + 1 * k.val = k.val; omega

/-- The staged hidden weight is the whole weight argument, for the same reason. -/
theorem blkWhh_apply (c : Dev nD) (t : Fin cfg0.N) (n : Fin 4096) (k : Fin 1024) :
    blkWhh m c t (ix2 n k) = (argsOf m c).whh (ix2 n k) := by
  obtain ⟨h0, h1⟩ := widx5 t
  have e : (V m c main_v1 : S4096x1024.Idx → EReal) = m ((c : Thread nD τ).loc main_arg4) := by
    dsimp only [Gen.V, Gen.hostOps0]; after_results; rfl
  show V m c main_v1 (((cfg0.win 5).blk t).view.emb (ix2 n k)) = m ((c : Thread nD τ).loc main_arg4) (ix2 n k)
  rw [e]
  congr 1
  funext a; apply Fin.ext
  match a with
  | ⟨0, _⟩ => show win0_5.index t (0 : Fin 2) * 4096 + 1 * n.val = n.val; omega
  | ⟨1, _⟩ => show win0_5.index t (1 : Fin 2) * 1024 + 1 * k.val = k.val; omega

/-- The staged row of input biases is the bias vector recast as one row. -/
theorem blkBih_apply (c : Dev nD) (t : Fin cfg0.N) (n : Fin 4096) :
    blkBih m c t (ix2 (0 : Fin 1) n) = (argsOf m c).bih (ix1 n) := by
  obtain ⟨h0, h1⟩ := widx6 t
  have e : (V m c main_v2 : S1x4096.Idx → EReal) = shapeCast S1x4096 (m ((c : Thread nD τ).loc main_arg5)) shapeCasts_S4096_S1x4096 := by
    dsimp only [Gen.V, Gen.hostOps0]; after_results; rfl
  have hi : ((cfg0.win 6).blk t).view.emb (ix2 (0 : Fin 1) n) = ix2 (0 : Fin 1) n := by
    funext a; apply Fin.ext
    match a with
    | ⟨0, _⟩ => show win0_6.index t (0 : Fin 2) * 1 + 1 * 0 = 0; omega
    | ⟨1, _⟩ => show win0_6.index t (1 : Fin 2) * 4096 + 1 * n.val = n.val; omega
  show V m c main_v2 (((cfg0.win 6).blk t).view.emb (ix2 (0 : Fin 1) n)) = m ((c : Thread nD τ).loc main_arg5) (ix1 n)
  rw [e, hi]
  exact shapeCast_a_1a_apply _ shapeCasts_S4096_S1x4096 (0 : Fin 1) n

/-- The staged row of hidden biases, likewise. -/
theorem blkBhh_apply (c : Dev nD) (t : Fin cfg0.N) (n : Fin 4096) :
    blkBhh m c t (ix2 (0 : Fin 1) n) = (argsOf m c).bhh (ix1 n) := by
  obtain ⟨h0, h1⟩ := widx7 t
  have e : (V m c main_v3 : S1x4096.Idx → EReal) = shapeCast S1x4096 (m ((c : Thread nD τ).loc main_arg6)) shapeCasts_S4096_S1x4096 := by
    dsimp only [Gen.V, Gen.hostOps0]; after_results; rfl
  have hi : ((cfg0.win 7).blk t).view.emb (ix2 (0 : Fin 1) n) = ix2 (0 : Fin 1) n := by
    funext a; apply Fin.ext
    match a with
    | ⟨0, _⟩ => show win0_7.index t (0 : Fin 2) * 1 + 1 * 0 = 0; omega
    | ⟨1, _⟩ => show win0_7.index t (1 : Fin 2) * 4096 + 1 * n.val = n.val; omega
  show V m c main_v3 (((cfg0.win 7).blk t).view.emb (ix2 (0 : Fin 1) n)) = m ((c : Thread nD τ).loc main_arg6) (ix1 n)
  rw [e, hi]
  exact shapeCast_a_1a_apply _ shapeCasts_S4096_S1x4096 (0 : Fin 1) n

/-- The staged row of means, likewise. -/
theorem blkMu_apply (c : Dev nD) (t : Fin cfg0.N) (n : Fin 4096) :
    blkMu m c t (ix2 (0 : Fin 1) n) = (argsOf m c).mu (ix1 n) := by
  obtain ⟨h0, h1⟩ := widx8 t
  have e : (V m c main_v4 : S1x4096.Idx → EReal) = shapeCast S1x4096 (m ((c : Thread nD τ).loc main_arg7)) shapeCasts_S4096_S1x4096 := by
    dsimp only [Gen.V, Gen.hostOps0]; after_results; rfl
  have hi : ((cfg0.win 8).blk t).view.emb (ix2 (0 : Fin 1) n) = ix2 (0 : Fin 1) n := by
    funext a; apply Fin.ext
    match a with
    | ⟨0, _⟩ => show win0_8.index t (0 : Fin 2) * 1 + 1 * 0 = 0; omega
    | ⟨1, _⟩ => show win0_8.index t (1 : Fin 2) * 4096 + 1 * n.val = n.val; omega
  show V m c main_v4 (((cfg0.win 8).blk t).view.emb (ix2 (0 : Fin 1) n)) = m ((c : Thread nD τ).loc main_arg7) (ix1 n)
  rw [e, hi]
  exact shapeCast_a_1a_apply _ shapeCasts_S4096_S1x4096 (0 : Fin 1) n

/-- The staged row of scales, likewise. -/
theorem blkSg_apply (c : Dev nD) (t : Fin cfg0.N) (n : Fin 4096) :
    blkSg m c t (ix2 (0 : Fin 1) n) = (argsOf m c).sg (ix1 n) := by
  obtain ⟨h0, h1⟩ := widx9 t
  have e : (V m c main_v5 : S1x4096.Idx → EReal) = shapeCast S1x4096 (m ((c : Thread nD τ).loc main_arg8)) shapeCasts_S4096_S1x4096 := by
    dsimp only [Gen.V, Gen.hostOps0]; after_results; rfl
  have hi : ((cfg0.win 9).blk t).view.emb (ix2 (0 : Fin 1) n) = ix2 (0 : Fin 1) n := by
    funext a; apply Fin.ext
    match a with
    | ⟨0, _⟩ => show win0_9.index t (0 : Fin 2) * 1 + 1 * 0 = 0; omega
    | ⟨1, _⟩ => show win0_9.index t (1 : Fin 2) * 4096 + 1 * n.val = n.val; omega
  show V m c main_v5 (((cfg0.win 9).blk t).view.emb (ix2 (0 : Fin 1) n)) = m ((c : Thread nD τ).loc main_arg8) (ix1 n)
  rw [e, hi]
  exact shapeCast_a_1a_apply _ shapeCasts_S4096_S1x4096 (0 : Fin 1) n

/-! ## The block's cell is the cell at the block's batch rows -/

/-- The pre-activations of the block of point t are the cell's at batch rows 128·t + p. -/
theorem blockGate_eq (c : Dev nD) (t : Fin cfg0.N) (p : Fin 128) (n : Fin 4096) :
    blockGate (blkInp m c t) (blkHx m c t) (blkWih m c t) (blkWhh m c t) (blkBih m c t) (blkBhh m c t) (blkMu m c t) (blkSg m c t) (blkEps m c t) p n = gate (argsOf m c) (rowOf t p) n := by
  unfold blockGate gate
  simp only [blkInp_apply, blkHx_apply, blkWih_apply, blkWhh_apply, blkBih_apply, blkBhh_apply, blkMu_apply, blkSg_apply,
    blkEps_apply]

/-- So is the block's new cell state … -/
theorem blockCell_eq (c : Dev nD) (t : Fin cfg0.N) (p : Fin 128) (q : Fin 1024) :
    blockCell (blkInp m c t) (blkHx m c t) (blkWih m c t) (blkWhh m c t) (blkBih m c t) (blkBhh m c t) (blkMu m c t) (blkSg m c t) (blkEps m c t) (blkCx m c t) p q = cell (argsOf m c) (rowOf t p) q := by
  unfold blockCell cell
  rw [blockGate_eq, blockGate_eq, blockGate_eq, blkCx_apply]

/-- … and its new hidden state. -/
theorem blockHidden_eq (c : Dev nD) (t : Fin cfg0.N) (p : Fin 128) (q : Fin 1024) :
    blockHidden (blkInp m c t) (blkHx m c t) (blkWih m c t) (blkWhh m c t) (blkBih m c t) (blkBhh m c t) (blkMu m c t) (blkSg m c t) (blkEps m c t) (blkCx m c t) p q = Cell.hidden (argsOf m c) (rowOf t p) q := by
  unfold blockHidden Cell.hidden
  rw [blockGate_eq, blockCell_eq]

/-! ## What each point writes back -/

/-- Output window 10's block at point t sits at rows 128·t … 128·t + 127, all 1024 columns. -/
theorem out10_idx (t : Fin cfg0.N) (p : Fin 128) (q : Fin 1024) :
    ((cfg0.win 10).blk t).view.emb (ix2 p q) = ix2 (rowOf t p) q := by
  obtain ⟨h0, h1⟩ := widx10 t
  funext a; apply Fin.ext
  match a with
  | ⟨0, _⟩ => show win0_10.index t (0 : Fin 2) * 128 + 1 * p.val = t.val * 128 + p.val; omega
  | ⟨1, _⟩ => show win0_10.index t (1 : Fin 2) * 1024 + 1 * q.val = q.val; omega

/-- Output window 11's block at point t sits at rows 128·t … 128·t + 127, all 1024 columns. -/
theorem out11_idx (t : Fin cfg0.N) (p : Fin 128) (q : Fin 1024) :
    ((cfg0.win 11).blk t).view.emb (ix2 p q) = ix2 (rowOf t p) q := by
  obtain ⟨h0, h1⟩ := widx11 t
  funext a; apply Fin.ext
  match a with
  | ⟨0, _⟩ => show win0_11.index t (0 : Fin 2) * 128 + 1 * p.val = t.val * 128 + p.val; omega
  | ⟨1, _⟩ => show win0_11.index t (1 : Fin 2) * 1024 + 1 * q.val = q.val; omega

/-- Point t writes back, to the first result array, block t of the new hidden states. -/
theorem flushed10_eq (c : Dev nD) (t : Fin cfg0.N) :
    (dats m 0 c).flushed 10 t = ((cfg0.win 10).blk t).view.read (Elt Ideal) (hiddenArr (argsOf m c)) := by
  rw [flushed10]
  funext j
  obtain ⟨p, q, rfl⟩ : ∃ (p : Fin 128) (q : Fin 1024), j = ix2 p q := ⟨j 0, j 1, eq_ix2 j⟩
  show out0_10 (iblk m c 0 t) (iblk m c 1 t) (iblk m c 2 t) (iblk m c 3 t) (iblk m c 4 t) (iblk m c 5 t) (iblk m c 6 t) (iblk m c 7 t) (iblk m c 8 t) (iblk m c 9 t) (ix2 p q) = hiddenArr (argsOf m c) (((cfg0.win 10).blk t).view.emb (ix2 p q))
  unfold out0_10
  simp only [View.ld_unit_zero (S := S128x512) hz, View.ld_unit_zero (S := S128x1024) hz, View.ld_unit_zero (S := S4096x512) hz, View.ld_unit_zero (S := S4096x1024) hz, View.ld_unit_zero (S := S1x4096) hz, View.ld_unit_zero (S := S128x4096) hz]
  refine (hiddenBlock_apply (blkInp m c t) (blkHx m c t) (blkWih m c t) (blkWhh m c t) (blkBih m c t) (blkBhh m c t) (blkMu m c t) (blkSg m c t) (blkEps m c t) (blkCx m c t) p q).trans ?_
  rw [blockHidden_eq, out10_idx]
  rfl

/-- Point t writes back, to the second result array, block t of the new cell states. -/
theorem flushed11_eq (c : Dev nD) (t : Fin cfg0.N) :
    (dats m 0 c).flushed 11 t = ((cfg0.win 11).blk t).view.read (Elt Ideal) (cellArr (argsOf m c)) := by
  rw [flushed11]
  funext j
  obtain ⟨p, q, rfl⟩ : ∃ (p : Fin 128) (q : Fin 1024), j = ix2 p q := ⟨j 0, j 1, eq_ix2 j⟩
  show out0_11 (iblk m c 0 t) (iblk m c 1 t) (iblk m c 2 t) (iblk m c 3 t) (iblk m c 4 t) (iblk m c 5 t) (iblk m c 6 t) (iblk m c 7 t) (iblk m c 8 t) (iblk m c 9 t) (ix2 p q) = cellArr (argsOf m c) (((cfg0.win 11).blk t).view.emb (ix2 p q))
  unfold out0_11
  simp only [View.ld_unit_zero (S := S128x512) hz, View.ld_unit_zero (S := S128x1024) hz, View.ld_unit_zero (S := S4096x512) hz, View.ld_unit_zero (S := S4096x1024) hz, View.ld_unit_zero (S := S1x4096) hz, View.ld_unit_zero (S := S128x4096) hz]
  refine (cellBlock_apply (blkInp m c t) (blkHx m c t) (blkWih m c t) (blkWhh m c t) (blkBih m c t) (blkBhh m c t) (blkMu m c t) (blkSg m c t) (blkEps m c t) (blkCx m c t) p q).trans ?_
  rw [blockCell_eq, out11_idx]
  rfl

/-! ## The 64 blocks tile the result arrays -/

/-- An index of the result array is in point t's block of window 10 iff its row is among the block's 128 rows. -/
theorem mem_blk10 (t : Fin cfg0.N) (i : S8192x1024.Idx) :
    i ∈ ((cfg0.win 10).blk t).view.set ↔ ∀ a : Fin 2, win0_10.index t a * S128x1024.size a ≤ (i a).val ∧ (i a).val < win0_10.index t a * S128x1024.size a + S128x1024.size a := by
  show i ∈ ((View.whole main_v6_0).slice (win0_10.rect t)).set ↔ _
  rw [View.set_slice_whole, Rect.mem_set_unit]
  exact Iff.rfl

/-- Every index of the result array is in the block of the point that owns its row. -/
theorem cover10 (i : S8192x1024.Idx) : ∃ t : Fin cfg0.N, (cfg0.win 10).flush t = true ∧ i ∈ ((cfg0.win 10).blk t).view.set := by
  have hi0 : (i 0).val < 8192 := (i 0).isLt
  have hi1 : (i 1).val < 1024 := (i 1).isLt
  have hN : cfg0.N = 64 := N_0
  let t : Fin cfg0.N := ⟨(i 0).val / 128, by rw [hN]; omega⟩
  obtain ⟨h0, h1⟩ := widx10 t
  have ht : t.val = (i 0).val / 128 := rfl
  refine ⟨t, flush0_10 t, ?_⟩
  rw [mem_blk10]
  intro a
  match a with
  | ⟨0, _⟩ => show win0_10.index t (0 : Fin 2) * 128 ≤ (i 0).val ∧ (i 0).val < win0_10.index t (0 : Fin 2) * 128 + 128; omega
  | ⟨1, _⟩ => show win0_10.index t (1 : Fin 2) * 1024 ≤ (i 1).val ∧ (i 1).val < win0_10.index t (1 : Fin 2) * 1024 + 1024; omega

/-- An index of the result array is in point t's block of window 11 iff its row is among the block's 128 rows. -/
theorem mem_blk11 (t : Fin cfg0.N) (i : S8192x1024.Idx) :
    i ∈ ((cfg0.win 11).blk t).view.set ↔ ∀ a : Fin 2, win0_11.index t a * S128x1024.size a ≤ (i a).val ∧ (i a).val < win0_11.index t a * S128x1024.size a + S128x1024.size a := by
  show i ∈ ((View.whole main_v6_1).slice (win0_11.rect t)).set ↔ _
  rw [View.set_slice_whole, Rect.mem_set_unit]
  exact Iff.rfl

/-- Every index of the result array is in the block of the point that owns its row. -/
theorem cover11 (i : S8192x1024.Idx) : ∃ t : Fin cfg0.N, (cfg0.win 11).flush t = true ∧ i ∈ ((cfg0.win 11).blk t).view.set := by
  have hi0 : (i 0).val < 8192 := (i 0).isLt
  have hi1 : (i 1).val < 1024 := (i 1).isLt
  have hN : cfg0.N = 64 := N_0
  let t : Fin cfg0.N := ⟨(i 0).val / 128, by rw [hN]; omega⟩
  obtain ⟨h0, h1⟩ := widx11 t
  have ht : t.val = (i 0).val / 128 := rfl
  refine ⟨t, flush0_11 t, ?_⟩
  rw [mem_blk11]
  intro a
  match a with
  | ⟨0, _⟩ => show win0_11.index t (0 : Fin 2) * 128 ≤ (i 0).val ∧ (i 0).val < win0_11.index t (0 : Fin 2) * 128 + 128; omega
  | ⟨1, _⟩ => show win0_11.index t (1 : Fin 2) * 1024 ≤ (i 1).val ∧ (i 1).val < win0_11.index t (1 : Fin 2) * 1024 + 1024; omega

/-- The first result array ends holding the new hidden states … -/
theorem final10 (c : Dev nD) : (dats m 0 c).arrAt 10 cfg0.N = hiddenArr (argsOf m c) :=
  (dats m 0 c).arrAt_eq_of_cover 10 (hiddenArr (argsOf m c)) (fun t _ => flushed10_eq m c t) cover10

/-- … and the second the new cell states. -/
theorem final11 (c : Dev nD) : (dats m 0 c).arrAt 11 cfg0.N = cellArr (argsOf m c) :=
  (dats m 0 c).arrAt_eq_of_cover 11 (cellArr (argsOf m c)) (fun t _ => flushed11_eq m c t) cover11

/-! ## The kernel's run -/

/-- Every fair execution of the kernel program ends with the two result arrays at the cell's hidden and cell states
    of the arguments, and the arguments as they were. -/
theorem run : θ_run defs (onTc (τ := τ) (main (F := Ideal))) ⟨m, fun _ => 0, ρ⟩ fun r => ∀ c : Dev nD,
      r.2.mem ((c : Thread nD τ).loc main_v6_0) = hiddenArr (argsOf m c)
      ∧ r.2.mem ((c : Thread nD τ).loc main_v6_1) = cellArr (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (run_blocks m ρ)

end Cert.KernelIdeal.KernelCell

end
-- ==== Proof.lean ====
/-
  A long short-term memory cell whose gate pre-activations carry an additive perturbation mu + sigma·eps, on a batch of
  8192 rows: the kernel against its reference, on the extended reals.

  Both programs compute, for batch row b and gate column n,
      gate b n = Σ_k inp[b,k]·W_ih[n,k] + Σ_k hx[b,k]·W_hh[n,k] + b_ih[n] + b_hh[n] + (mu[n] + sigma[n]·eps[b,n]),
  then  c' = σ(forget)·cx + σ(input)·tanh(candidate)  and  h' = σ(output)·tanh(c')  (Cell.lean).

  The kernel works on 64 blocks of 128 batch rows. It narrows its matrix operands to bf16, which changes no extended
  real; multiplies into accumulators of zeros, which is the plain sum over k; uses the logistic operation, which on
  extended reals is 1 / (1 + exp (−x)) with the same conventions at the infinities as the host's division and
  exponential; and writes each block of the two results whole (GateBlock.lean, CellBlock.lean, KernelCell.lean). The
  reference transposes the weights, contracts, adds the first bias before the second product, broadcasts the four
  vectors along the batch, and spells the logistic function out (RefCell.lean). The one law that joins the two sides
  is that addition of extended reals is commutative and associative, which holds with the infinities included, so the
  finiteness of the inputs is never used. The ideal pass rewrote nothing in the kernel, so there is nothing to
  preserve; the three frames are the generated ones, the reference's being its generated run with the results dropped.
-/
import proofs.«159828_j85194971283616_1_alg».proof.Defs
import proofs.«159828_j85194971283616_1_alg».proof.Proof.Gen.Kernel
import proofs.«159828_j85194971283616_1_alg».proof.Proof.Gen.Kernel.Skeleton
import proofs.«159828_j85194971283616_1_alg».proof.Proof.Gen.Kernel.Launch
import proofs.«159828_j85194971283616_1_alg».proof.Proof.Gen.Kernel.Points
import proofs.«159828_j85194971283616_1_alg».proof.Proof.Gen.Kernel.Frame
import proofs.«159828_j85194971283616_1_alg».proof.Proof.Gen.KernelIdeal
import proofs.«159828_j85194971283616_1_alg».proof.Proof.Gen.KernelIdeal.Skeleton
import proofs.«159828_j85194971283616_1_alg».proof.Proof.Gen.KernelIdeal.Launch
import proofs.«159828_j85194971283616_1_alg».proof.Proof.Gen.KernelIdeal.Points
import proofs.«159828_j85194971283616_1_alg».proof.Proof.Gen.KernelIdeal.Frame
import proofs.«159828_j85194971283616_1_alg».proof.Proof.Gen.ReferenceIdeal
import proofs.«159828_j85194971283616_1_alg».proof.Proof.Gen.Pre_finite_inputs
import proofs.«159828_j85194971283616_1_alg».proof.Proof.Gen.KernelIdeal.Value
import proofs.«159828_j85194971283616_1_alg».proof.Proof.Gen.ReferenceIdeal.Run
import proofs.«159828_j85194971283616_1_alg».proof.Proof.Gen.ReferenceIdeal.Read
import proofs.«159828_j85194971283616_1_alg».proof.Proof.Cell
import proofs.«159828_j85194971283616_1_alg».proof.Proof.RefCell
import proofs.«159828_j85194971283616_1_alg».proof.Proof.KernelCell
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the ten arguments, the kernel's two result arrays and the reference's two results are
    the same arrays: the cell's hidden and cell states of the arguments. -/
theorem algebraic : Cert.algebraic_KernelIdeal_ReferenceIdeal := by
  intro m ρ m' ρ' _ hagree
  refine ⟨fun c => Cert.Cell.hiddenArr (Cert.KernelIdeal.KernelCell.argsOf m c), fun c => Cert.Cell.cellArr (Cert.KernelIdeal.KernelCell.argsOf m c),
    Cert.KernelIdeal.KernelCell.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    show Cert.ReferenceIdeal.Value.res_main_v45 m' c = Cert.Cell.hiddenArr (Cert.KernelIdeal.KernelCell.argsOf m c)
    rw [Cert.ReferenceIdeal.Read.val_main_v45_eq, a0, a1, a2, a3, a4, a5, a6, a7, a8, a9]
    exact Cert.ReferenceIdeal.RefCell.hidden_eq (Cert.KernelIdeal.KernelCell.argsOf m c)
  · obtain ⟨a0, a1, a2, a3, a4, a5, a6, a7, a8, a9⟩ := hagree c
    show Cert.ReferenceIdeal.Value.res_main_v43 m' c = Cert.Cell.cellArr (Cert.KernelIdeal.KernelCell.argsOf m c)
    rw [Cert.ReferenceIdeal.Read.val_main_v43_eq, a0, a1, a2, a3, a4, a5, a6, a7, a8, a9]
    exact Cert.ReferenceIdeal.RefCell.cell_eq (Cert.KernelIdeal.KernelCell.argsOf m c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
